-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16384x128 .f32) (main_arg1 : FVec F S8192x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S16384x128 : Shape := ⟨2, ![16384, 128]⟩
abbrev S8192x128 : Shape := ⟨2, ![8192, 128]⟩
abbrev S16384x1 : Shape := ⟨2, ![16384, 1]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S128x1024 : Shape := ⟨2, ![128, 1024]⟩
abbrev S1024x1024 : Shape := ⟨2, ![1024, 1024]⟩
abbrev S16384 : Shape := ⟨1, ![16384]⟩

abbrev nBuf : Space → Nat
  | .hbm => 4
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x1, .f32⟩
  | .hbm, ⟨3, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S16384x1_S16384 : S16384x1.ShapeCasts S16384
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S128x8192 : Shape := ⟨2, ![128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S128x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S8192x128_S8192_d1 : S8192x128.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x128_S128x8192_1_0 : S8192x128.Transposes [1, 0] S128x8192
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  dot_S16384x128_S128x8192_S16384x8192_1_0_0_1_n_n_wf : DotDims.WF S16384x128 S128x8192 S16384x8192 [1] [0] [0] [1] [] []

variable [Facts₀]

def dot_S16384x128_S128x8192_S16384x8192_1_0_0_1_n_n : DotDims S16384x128 S128x8192 S16384x8192 where
  lhsContracting := [1]
  rhsContracting := [0]
  lhsNonContracting := [0]
  rhsNonContracting := [1]
  lhsBatch := []
  rhsBatch := []
  wf := dot_S16384x128_S128x8192_S16384x8192_1_0_0_1_n_n_wf

class Facts : Prop extends Facts₀ where

variable [Facts]
-- ==== Proof.Spec.lean ====
/-
  The mathematics both programs compute, stated once over the argument arrays.

  For a row `r` of `a` and a row `q` of `b` (rows of length 128) the distance is
  `sqrt (max (|a_r|² + |b_q|² − 2 · ⟨a_r, b_q⟩) 0)` on the extended reals, the constants `2` and `0` being the
  values of their f32 words. A row's score is its least distance to the rows of `b`, starting from the value
  of the word `+∞`, less the value of the word `0.1`, clamped below at `0`.

  The kernel takes the least distance tile by tile (1024 rows of `b` at a time), keeping a running minimum;
  the reference takes it over all rows at once. The law that joins them is that the minimum over an initial
  segment extended by the next tile is the smaller of the segment's minimum and the tile's: a fact about
  `min` alone (commutative, associative, idempotent), so no finiteness of the inputs is needed.
-/
import Idealize.ShloMosaic.PureOps.Ideal.Laws
import Idealize.ShloMosaic.Lib.ValueIdx

noncomputable section

namespace Cert.MinDist

open Idealize.ShloMosaic Idealize.ShloMosaic.ValueIdx

/-- The value of the f32 word `+∞`, where every minimum starts. -/
abbrev top : EReal := Ideal.ofBits .f32 0x7F800000#32

/-- The squared length of row `r`. -/
def sq {n : ℕ} (a : FVec Ideal ⟨2, ![n, 128]⟩ .f32) (r : Fin n) : EReal :=
  ∑ k : Fin 128, a (ix2 r k) * a (ix2 r k)

/-- The inner product of row `r` of `a` with row `q` of `b`. -/
def inner {n m : ℕ} (a : FVec Ideal ⟨2, ![n, 128]⟩ .f32) (b : FVec Ideal ⟨2, ![m, 128]⟩ .f32) (r : Fin n) (q : Fin m) : EReal :=
  ∑ k : Fin 128, a (ix2 r k) * b (ix2 q k)

/-- The distance between row `r` of `a` and row `q` of `b`. -/
def dist {n m : ℕ} (a : FVec Ideal ⟨2, ![n, 128]⟩ .f32) (b : FVec Ideal ⟨2, ![m, 128]⟩ .f32) (r : Fin n) (q : Fin m) : EReal :=
  Ideal.sqrt (max ((sq a r + sq b q) - Ideal.ofBits .f32 0x40000000#32 * inner a b r q) (Ideal.ofBits .f32 0x00000000#32))

/-- The distance depends on the two rows only: arrays that agree on them give the same distance. -/
theorem dist_congr {n m n' m' : ℕ} (a : FVec Ideal ⟨2, ![n, 128]⟩ .f32) (b : FVec Ideal ⟨2, ![m, 128]⟩ .f32)
    (a' : FVec Ideal ⟨2, ![n', 128]⟩ .f32) (b' : FVec Ideal ⟨2, ![m', 128]⟩ .f32) (r : Fin n) (q : Fin m) (r' : Fin n') (q' : Fin m')
    (ha : ∀ k : Fin 128, a (ix2 r k) = a' (ix2 r' k)) (hb : ∀ k : Fin 128, b (ix2 q k) = b' (ix2 q' k)) :
    dist a b r q = dist a' b' r' q' := by
  unfold dist sq inner
  simp only [ha, hb]

/-- The least distance from row `r` of `a` to the rows of `b` below `B`. -/
def partMin {n m : ℕ} (a : FVec Ideal ⟨2, ![n, 128]⟩ .f32) (b : FVec Ideal ⟨2, ![m, 128]⟩ .f32) (r : Fin n) (B : ℕ) : EReal :=
  (Finset.univ.filter fun q : Fin m => q.val < B).fold min top (dist a b r)

/-- The least distance from row `r` of `a` to all rows of `b`. -/
def rowMin {n m : ℕ} (a : FVec Ideal ⟨2, ![n, 128]⟩ .f32) (b : FVec Ideal ⟨2, ![m, 128]⟩ .f32) (r : Fin n) : EReal :=
  (Finset.univ : Finset (Fin m)).fold min top (dist a b r)

/-- The score of a least distance: less the value of the word `0.1`, clamped below at the value of the word `0`. -/
def score (v : EReal) : EReal :=
  max (v - Ideal.ofBits .f32 0x3DCCCCCD#32) (Ideal.ofBits .f32 0x00000000#32)

/-- THE RESULT: entry `r` is the score of row `r`'s least distance to the rows of `s`. -/
def G (x : FVec Ideal ⟨2, ![16384, 128]⟩ .f32) (s : FVec Ideal ⟨2, ![8192, 128]⟩ .f32) : FVec Ideal ⟨1, ![16384]⟩ .f32 :=
  fun i => score (rowMin x s ⟨(i 0).val, (i 0).isLt⟩)

theorem G_apply (x : FVec Ideal ⟨2, ![16384, 128]⟩ .f32) (s : FVec Ideal ⟨2, ![8192, 128]⟩ .f32) (r : Fin 16384) :
    G x s (ix1 r) = score (rowMin x s r) := rfl

/-! ## The minimum, tile by tile -/

/-- The minimum over all indices is the minimum over the indices below the extent. -/
theorem partMin_full {n m : ℕ} (a : FVec Ideal ⟨2, ![n, 128]⟩ .f32) (b : FVec Ideal ⟨2, ![m, 128]⟩ .f32) (r : Fin n) :
    partMin a b r m = rowMin a b r := by
  unfold partMin rowMin
  rw [Finset.filter_true_of_mem fun q _ => q.isLt]

/-- A further tile: the minimum below `B` met with the minimum over the next `T` indices is the minimum below `B + T`. -/
theorem min_part_tile {m : ℕ} (f : Fin m → EReal) (B T : ℕ) (hBT : B + T ≤ m) :
    min ((Finset.univ.filter fun q : Fin m => q.val < B).fold min top f)
        ((Finset.univ : Finset (Fin T)).fold min top fun q' => f ⟨B + q'.val, by omega⟩)
      = (Finset.univ.filter fun q : Fin m => q.val < B + T).fold min top f := by
  refine eq_of_forall_le_iff fun c => ?_
  simp only [le_min_iff, Finset.le_fold_min, Finset.mem_filter, Finset.mem_univ, true_and, true_implies]
  constructor
  · rintro ⟨⟨h0, hB⟩, -, hT⟩
    refine ⟨h0, fun q hq => ?_⟩
    by_cases hlt : q.val < B
    · exact hB q hlt
    · have := hT ⟨q.val - B, by omega⟩
      rwa [show (⟨B + (⟨q.val - B, by omega⟩ : Fin T).val, by omega⟩ : Fin m) = q from Fin.ext (by simp only; omega)] at this
  · rintro ⟨h0, h⟩
    exact ⟨⟨h0, fun q hq => h q (by omega)⟩, h0, fun q' => h _ (by simp only; omega)⟩

/-- Below `0` there is no row: the minimum is where it starts. -/
theorem partMin_zero {n m : ℕ} (a : FVec Ideal ⟨2, ![n, 128]⟩ .f32) (b : FVec Ideal ⟨2, ![m, 128]⟩ .f32) (r : Fin n) :
    partMin a b r 0 = top := by
  unfold partMin
  rw [Finset.filter_false_of_mem fun q _ => Nat.not_lt_zero _, Finset.fold_empty]

/-- THE STEP: the least distance to the rows below `B`, met with the least distance to the next `T` rows, is the
    least distance to the rows below `B + T`. -/
theorem partMin_step {n m : ℕ} (a : FVec Ideal ⟨2, ![n, 128]⟩ .f32) (b : FVec Ideal ⟨2, ![m, 128]⟩ .f32) (r : Fin n)
    (B T : ℕ) (hBT : B + T ≤ m) :
    min (partMin a b r B) ((Finset.univ : Finset (Fin T)).fold min top fun q' => dist a b r ⟨B + q'.val, by omega⟩)
      = partMin a b r (B + T) :=
  min_part_tile (dist a b r) B T hBT

end Cert.MinDist

end
-- ==== Proof.Blocks.lean ====
/-
  The input blocks at a grid point, read off the argument arrays.

  The grid has 16 × 8 points, the second coordinate fastest: point `t` works on row block `t / 8` of `x` and
  row block `t % 8` of `s`, 1024 rows each, all 128 columns. So row `p` of the `x` block at `t` is row
  `(t / 8) · 1024 + p` of `x`, and row `q` of the `s` block is row `(t % 8) · 1024 + q` of `s`; the output block
  at `t` is row block `t / 8` of the one-column result.
-/
import proofs.«116291_j87780541595761_1_alg».proof.Proof.Gen.KernelIdeal.Frame
import proofs.«116291_j87780541595761_1_alg».proof.Proof.Spec
import Idealize.ShloMosaic.Lib.Pipeline.Value
import Idealize.ShloMosaic.Lib.ValueIdx

noncomputable section

namespace Cert.MinDist

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two input blocks at a point and the two argument arrays, each at its literal type. -/
abbrev xblk (c : Dev nD) (t : Fin cfg0.N) : FVec Ideal S1024x128 .f32 := iblk m c 0 t
abbrev sblk (c : Dev nD) (t : Fin cfg0.N) : FVec Ideal S1024x128 .f32 := iblk m c 1 t
abbrev xarr (c : Dev nD) : FVec Ideal S16384x128 .f32 := V m c main_arg0
abbrev sarr (c : Dev nD) : FVec Ideal S8192x128 .f32 := V m c main_arg1

/-- The windows' block indices at point `t`, decided over the grid. -/
theorem block_index : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row `p` of the `x` block at `t` is row `r = (t / 8) · 1024 + p` of `x`. -/
theorem xblk_apply (c : Dev nD) (t : Fin cfg0.N) (p : Fin 1024) (k : Fin 128) (r : Fin 16384)
    (hr : r.val = t.val / 8 * 1024 + p.val) : xblk m c t (ix2 p k) = xarr m c (ix2 r k) := by
  show V m c main_arg0 (((cfg0.win 0).blk t).view.emb (ix2 p k)) = V m c main_arg0 (ix2 r k)
  refine congrArg (V m c main_arg0) (funext fun a => Fin.ext ?_)
  obtain ⟨e0, e1, -⟩ := block_index t
  match a with
  | ⟨0, _⟩ => show win0_0.index t (0 : Fin 2) * 1024 + 1 * p.val = r.val; omega
  | ⟨1, _⟩ => show win0_0.index t (1 : Fin 2) * 128 + 1 * k.val = k.val; omega

/-- Row `q` of the `s` block at `t` is row `u = (t % 8) · 1024 + q` of `s`. -/
theorem sblk_apply (c : Dev nD) (t : Fin cfg0.N) (q : Fin 1024) (k : Fin 128) (u : Fin 8192)
    (hu : u.val = t.val % 8 * 1024 + q.val) : sblk m c t (ix2 q k) = sarr m c (ix2 u k) := by
  show V m c main_arg1 (((cfg0.win 1).blk t).view.emb (ix2 q k)) = V m c main_arg1 (ix2 u k)
  refine congrArg (V m c main_arg1) (funext fun a => Fin.ext ?_)
  obtain ⟨-, -, e2, e3, -⟩ := block_index t
  match a with
  | ⟨0, _⟩ => show win0_1.index t (0 : Fin 2) * 1024 + 1 * q.val = u.val; omega
  | ⟨1, _⟩ => show win0_1.index t (1 : Fin 2) * 128 + 1 * k.val = k.val; omega

end Cert.MinDist

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  The kernel body's arithmetic, read at an index, at the ideal values.

  The body has three stored values. The first is the splat of the word `+∞`. The second, for an `x` block
  and an `s` block of 1024 rows each and a running minimum `acc`, is at row `p` the smaller of `acc p` and
  the least, over the `s` block's rows `q`, of the distance from `x`'s row `p` to `s`'s row `q`: the narrowing
  of both blocks to bf16 is the identity at the ideal values, the product of the one block with the other
  transposed into a zero accumulator is the rows' inner product, the two keepdims sums are the rows' squared
  lengths, and the lane minimum from `+∞` is a fold of `min`. The third is the score of the running minimum.
-/
import proofs.«116291_j87780541595761_1_alg».proof.Proof.Gen.KernelIdeal.Skeleton
import proofs.«116291_j87780541595761_1_alg».proof.Proof.Spec
import proofs.«116291_j87780541595761_1_alg».proof.Proof.LibDot
import Idealize.ShloMosaic.Lib.Pipeline.Value
import Idealize.ShloMosaic.Lib.ValueLayout
import Idealize.ShloMosaic.PureOps.Ideal.Laws
import Idealize.ShloMosaic.Lib.ValueIdx

noncomputable section

namespace Cert.MinDist

open Idealize.ShloMosaic Idealize.ShloMosaic.ValueIdx
open Cert.KernelIdeal Cert.KernelIdeal.Gen

variable {α : Type}

/-! ## The layout operations of the body, each at an index -/

/-- A length-1024 vector as a column: entry `(p, ·)` is entry `p`. -/
theorem col_of_vec (w : S1024.Idx → α) (h : S1024.ShapeCasts S1024x1) (p : Fin 1024) (z : Fin 1) :
    shapeCast S1024x1 w h (ix2 p z) = w (ix1 p) :=
  shapeCast_apply w h _ _ (by
    have hz : z.val = 0 := by omega
    rw [Shape.rowMajor_val_two, Shape.rowMajor_val_one]
    show p.val = p.val * 1 + z.val
    rw [hz, Nat.mul_one, Nat.add_zero])

/-- A column broadcast along the rows: entry `(p, q)` is the column's entry `p`. -/
theorem bcast_col (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : ℕ) = 1 then 0 else p.val
    rw [if_neg (by decide)]
  | ⟨1, _⟩ =>
    show 0 = if (1 : ℕ) = 1 then 0 else q.val
    rw [if_pos rfl]

/-- The transposed block: entry `(k, q)` is the block's entry `(q, k)`. -/
theorem transp_apply (v : S1024x128.Idx → α) (h : S1024x128.Transposes [1, 0] S128x1024) (k : Fin 128) (q : Fin 1024) :
    transpose S128x1024 [1, 0] v h (ix2 k q) = v (ix2 q k) :=
  transpose_apply [1, 0] v h (ix2 k q) (ix2 q k) (fun b => match b with
    | ⟨0, _⟩ => rfl
    | ⟨1, _⟩ => rfl)

/-! ## The reductions of the body, each at an index -/

/-- The lane sum of a block's squares at row `p` is the row's squared length. -/
theorem rowsq_apply (v : FVec Ideal S1024x128 .f32) (h : S1024x128.Reduces [1] S1024) (p : Fin 1024) :
    multiReduction .add [1] S1024 (mulf v v) 0x00000000#32 h (.inl rfl) rfl (ix1 p) = sq v p := by
  unfold sq
  refine (Ideal.multiReduction_add_single (mulf v v) 0x00000000#32 h (.inl rfl) rfl (ix1 p)).trans ?_
  refine Finset.sum_congr rfl fun k _ => ?_
  exact congrArg (fun i => v i * v i) (funext fun a => Fin.ext (by match a with | ⟨0, _⟩ => rfl | ⟨1, _⟩ => rfl))

/-- The lane minimum from `+∞` at row `p` is the fold of `min` over the row. -/
theorem rowmin_apply (v : FVec Ideal S1024x1024 .f32) (h : S1024x1024.Reduces [1] S1024) (p : Fin 1024) :
    multiReduction .minimumf [1] S1024 v 0x7F800000#32 h (.inl rfl) rfl (ix1 p)
      = (Finset.univ : Finset (Fin 1024)).fold min top (fun q => v (ix2 p q)) := by
  refine (multiReduction_minimumf_eq_fold v 0x7F800000#32 h (.inl rfl) rfl (ix1 p)).trans ?_
  refine (h.fold_filter_drop_single FloatOps.minimumf _ v (ix1 p)).trans ?_
  have e : (v ∘ h.lift (ix1 p)) = fun q : Fin 1024 => v (ix2 p q) :=
    funext fun q => congrArg v (funext fun a => Fin.ext (by match a with | ⟨0, _⟩ => rfl | ⟨1, _⟩ => rfl))
  exact congrArg (fun f => (Finset.univ : Finset (Fin 1024)).fold min top f) e

/-- The product of one block, narrowed, with the other, narrowed and transposed, into a zero accumulator:
    entry `(p, q)` is the inner product of row `p` of the one with row `q` of the other. -/
theorem cross_apply (a b : FVec Ideal S1024x128 .f32) (h1 h2 : FTy.bits .bf16 < FTy.bits .f32)
    (ht : S1024x128.Transposes [1, 0] S128x1024) (p q : Fin 1024) :
    matmul dot_S1024x128_S128x1024_S1024x1024_1_0_0_1_n_n none (truncf .bf16 a h1)
        (transpose S128x1024 [1, 0] (truncf .bf16 b h2) ht) (constant S1024x1024 .f32 0x00000000#32) (ix2 p q)
      = inner a b p q := by
  unfold inner
  refine (Cert.GNN.matmul_plain_zero_apply (M := 1024) (K := 128) (N := 1024) none (truncf .bf16 a h1)
    (transpose S128x1024 [1, 0] (truncf .bf16 b h2) ht) p q).trans ?_
  refine Finset.sum_congr rfl fun k _ => ?_
  rw [transp_apply]
  rfl

/-! ## The three stored values -/

/-- The reset value: `+∞` everywhere. -/
theorem pay1_apply (i : S1024x1.Idx) : k0_pay1 (F := Ideal) i = top := by
  unfold k0_pay1
  rw [shapeCast_self]
  rfl

/-- The tile's least distance at row `p`, as the body computes it from the two blocks. -/
def tileMin (a b : FVec Ideal S1024x128 .f32) (p : Fin 1024) : EReal :=
  (Finset.univ : Finset (Fin 1024)).fold min top (fun q => dist a b p q)

/-- The update: the running minimum met with the tile's least distance. -/
theorem pay2_apply (a b : Vec Ideal S1024x128 .f32) (acc : Vec Ideal S1024x1 .f32) (p : Fin 1024) (z : Fin 1) :
    k0_pay2 (F := Ideal) a b acc (ix2 p z) = min (acc (ix2 p z)) (tileMin a b p) := by
  unfold k0_pay2 tileMin
  dsimp only
  rw [shapeCast_self]
  refine congrArg (min (acc (ix2 p z))) ?_
  refine (col_of_vec _ _ p z).trans ?_
  refine (rowmin_apply _ _ p).trans ?_
  refine congrArg (fun f => (Finset.univ : Finset (Fin 1024)).fold min top f) (funext fun q => ?_)
  unfold dist
  refine congrArg Ideal.sqrt ?_
  refine congrArg (fun t => max t (Ideal.ofBits .f32 0x00000000#32)) ?_
  refine congrArg₂ (· - ·) (congrArg₂ (· + ·) ?_ ?_) (congrArg (Ideal.ofBits .f32 0x40000000#32 * ·) ?_)
  · exact (bcast_col _ _ p q).trans ((col_of_vec _ _ p 0).trans (rowsq_apply a _ p))
  · exact (broadcastTo_1b_ab_apply _ _ p q).trans ((shapeCast_a_1a_apply _ _ 0 q).trans (rowsq_apply b _ q))
  · exact cross_apply a b _ _ _ p q

/-- The output: the score of the running minimum. -/
theorem pay3_apply (acc : Vec Ideal S1024x1 .f32) (i : S1024x1.Idx) :
    k0_pay3 (F := Ideal) acc i = score (acc i) := rfl

end Cert.MinDist

end
-- ==== Proof.Pieces.lean ====
/-
  What each control case of the body leaves behind, as the body's stored values.

  At the first tile of a row block (case A) the running minimum is reset to `+∞` and then updated, so the
  scratch ends at the update of `+∞` by the two input blocks. At a middle tile (case B) and at the last tile
  (case C) it ends at the update of what the point before left. At the last tile the output block is the
  score of that fresh running minimum. These hold at any float instance: they are statements about which
  stored value lands where, not about arithmetic.
-/
import proofs.«116291_j87780541595761_1_alg».proof.Proof.Gen.KernelIdeal.Frame
import Idealize.ShloMosaic.Lib.Pipeline.Value
import Idealize.ShloMosaic.Lib.Tactic

noncomputable section

namespace Cert.MinDist

open Idealize.ShloMosaic Idealize.ShloMosaic.TcCoe Idealize.ShloMosaic.Tactic Idealize.SL.Sem
open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- First tile: the scratch ends at the update of the reset value. -/
theorem scratch_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x128 .f32) (x1 : Vec F S1024x128 .f32) :
    sout0_A_0 (F := F) c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) origin, View.readCov_unit_zero (S := S1024x1) _ origin]
  simp only [View.readAt_eq_ld, harg2.read_unread, harg3.read_unread, View.ld_unit_zero (S := S1024x128) origin]

/-- Middle tile: the scratch ends at the update of what it held. -/
theorem scratch_middle (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x128 .f32) (x1 : Vec F S1024x128 .f32) (xs0 : Vec F S1024x1 .f32) :
    sout0_B_0 (F := F) c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin]
  simp only [View.readAt_eq_ld, harg2.read_unread, harg3.read_unread, harg5.read_unread,
    View.ld_unit_zero (S := S1024x128) origin, View.ld_unit_zero (S := S1024x1) origin]

/-- Last tile: the scratch ends at the update of what it held, -/
theorem scratch_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x128 .f32) (x1 : Vec F S1024x128 .f32) (xs0 : Vec F S1024x1 .f32) :
    sout0_C_0 (F := F) c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread,
    View.ld_unit_zero (S := S1024x128) origin, View.ld_unit_zero (S := S1024x1) origin]

/-- and the output block at the third stored value of that fresh scratch. -/
theorem out_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x128 .f32) (x1 : Vec F S1024x128 .f32) (xs0 : Vec F S1024x1 .f32) :
    out0_C_2 (F := F) c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin, View.readCov_unit_zero (S := S1024x1) _ origin]
  simp only [View.readAt_eq_ld, harg2.read_unread, harg3.read_unread, harg5.read_unread,
    View.ld_unit_zero (S := S1024x128) origin, View.ld_unit_zero (S := S1024x1) origin]

end Cert.MinDist

end
-- ==== Proof.Invariant.lean ====
/-
  The running minimum, point by point.

  After grid point `t` (row block `t / 8`, tile `t % 8`) the scratch holds, at row `p`, the least distance from
  row `(t / 8) · 1024 + p` of `x` to the rows of `s` below `(t % 8 + 1) · 1024`: at a row block's first tile the
  reset value `+∞` is the least distance to no row at all, and at every tile the body meets what it found with
  the tile's own least distance, which extends the range by the tile's 1024 rows. By induction on the point.
  At a row block's last tile the range is all of `s`, and the output block is the score of that minimum.
-/
import proofs.«116291_j87780541595761_1_alg».proof.Proof.Gen.KernelIdeal.Frame
import proofs.«116291_j87780541595761_1_alg».proof.Proof.Spec
import proofs.«116291_j87780541595761_1_alg».proof.Proof.Payload
import proofs.«116291_j87780541595761_1_alg».proof.Proof.Pieces
import proofs.«116291_j87780541595761_1_alg».proof.Proof.Blocks

noncomputable section

namespace Cert.MinDist

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The tile's least distance at point `t`, over the argument arrays: the rows of `s` from `(t % 8) · 1024` on. -/
theorem tile_eq (c : Dev nD) (t : Fin cfg0.N) (p : Fin 1024) (r : Fin 16384) (hr : r.val = t.val / 8 * 1024 + p.val)
    (hB : t.val % 8 * 1024 + 1024 ≤ 8192) :
    tileMin (xblk m c t) (sblk m c t) p
      = (Finset.univ : Finset (Fin 1024)).fold min top
          fun q' => dist (xarr m c) (sarr m c) r ⟨t.val % 8 * 1024 + q'.val, by omega⟩ := by
  unfold tileMin
  refine congrArg (fun f => (Finset.univ : Finset (Fin 1024)).fold min top f) (funext fun q => ?_)
  exact dist_congr (xblk m c t) (sblk m c t) (xarr m c) (sarr m c) p q r ⟨t.val % 8 * 1024 + q.val, by omega⟩
    (fun k => xblk_apply m c t p k r hr) (fun k => sblk_apply m c t q k _ rfl)

/-- One update at point `t`: the minimum below the tile's first row, met with the tile's, is the minimum below its end. -/
theorem update_eq (c : Dev nD) (t : Fin cfg0.N) (p : Fin 1024) (r : Fin 16384) (hr : r.val = t.val / 8 * 1024 + p.val)
    (hN : t.val < 128) :
    min (partMin (xarr m c) (sarr m c) r (t.val % 8 * 1024)) (tileMin (xblk m c t) (sblk m c t) p)
      = partMin (xarr m c) (sarr m c) r ((t.val % 8 + 1) * 1024) := by
  have hB : t.val % 8 * 1024 + 1024 ≤ 8192 := by omega
  have hstep : t.val % 8 * 1024 + 1024 = (t.val % 8 + 1) * 1024 := by omega
  rw [tile_eq m c t p r hr hB, partMin_step (xarr m c) (sarr m c) r (t.val % 8 * 1024) 1024 hB, hstep]

/-- THE INVARIANT: what the scratch holds after point `t`. -/
theorem scratch_inv (c : Dev nD) : ∀ (n : ℕ) (t : Fin cfg0.N), t.val = n → ∀ (p : Fin 1024) (z : Fin 1) (r : Fin 16384),
    r.val = t.val / 8 * 1024 + p.val →
    (outsAt0 m c t.val t.isLt).2 (ix2 p z) = partMin (xarr m c) (sarr m c) r ((t.val % 8 + 1) * 1024) := by
  intro n
  induction n using Nat.strong_induction_on with
  | _ n ih =>
    intro t htn p z r hr
    have hN : t.val < 128 := lt_of_lt_of_eq t.isLt (show cfg0.N = 128 from N_0)
    refine Eq.trans ?_ (update_eq m c t p r hr hN)
    by_cases h0 : t.val % 8 = 0
    · have h1 : ¬t.val % 8 = 7 := by omega
      rw [outsAt0_A m c t h0 h1]
      dsimp only
      refine (congrFun (scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
        (iblk m c 0 t) (iblk m c 1 t)) (ix2 p z)).trans ?_
      refine (pay2_apply (xblk m c t) (sblk m c t) (k0_pay1 (F := Ideal)) p z).trans ?_
      rw [pay1_apply, h0, Nat.zero_mul, partMin_zero]
    · have hprev : (outsAt0 m c (t.val - 1) (Nat.lt_of_le_of_lt (Nat.sub_le _ _) t.isLt)).2 (ix2 p z) = partMin (xarr m c) (sarr m c) r (t.val % 8 * 1024) := by
        have hi := ih (t.val - 1) (by omega) ⟨t.val - 1, Nat.lt_of_le_of_lt (Nat.sub_le _ _) t.isLt⟩ rfl p z r
          (by show r.val = (t.val - 1) / 8 * 1024 + p.val; omega)
        refine hi.trans (congrArg (partMin (xarr m c) (sarr m c) r) ?_)
        show ((t.val - 1) % 8 + 1) * 1024 = t.val % 8 * 1024
        omega
      by_cases h1 : t.val % 8 = 7
      · rw [outsAt0_C m c t h0 h1]
        dsimp only
        refine (congrFun (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
          (iblk m c 0 t) (iblk m c 1 t) (outsAt0 m c (t.val - 1) (Nat.lt_of_le_of_lt (Nat.sub_le _ _) t.isLt)).2) (ix2 p z)).trans ?_
        refine (pay2_apply (xblk m c t) (sblk m c t) (outsAt0 m c (t.val - 1) (Nat.lt_of_le_of_lt (Nat.sub_le _ _) t.isLt)).2 p z).trans ?_
        rw [hprev]
      · rw [outsAt0_B m c t h0 h1]
        dsimp only
        refine (congrFun (scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
          (iblk m c 0 t) (iblk m c 1 t) (outsAt0 m c (t.val - 1) (Nat.lt_of_le_of_lt (Nat.sub_le _ _) t.isLt)).2) (ix2 p z)).trans ?_
        refine (pay2_apply (xblk m c t) (sblk m c t) (outsAt0 m c (t.val - 1) (Nat.lt_of_le_of_lt (Nat.sub_le _ _) t.isLt)).2 p z).trans ?_
        rw [hprev]

/-- At a row block's last tile the output block is, at row `p`, the score of the row's least distance to all of `s`. -/
theorem out_at (c : Dev nD) (t : Fin cfg0.N) (h7 : t.val % 8 = 7) (p : Fin 1024) (z : Fin 1) (r : Fin 16384)
    (hr : r.val = t.val / 8 * 1024 + p.val) :
    (outsAt0 m c t.val t.isLt).1 (ix2 p z) = score (rowMin (xarr m c) (sarr m c) r) := by
  have h0 : ¬t.val % 8 = 0 := by omega
  have hs := scratch_inv m c t.val t rfl p z r hr
  rw [outsAt0_C m c t h0 h7] at hs ⊢
  dsimp only at hs ⊢
  rw [scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7)
    (iblk m c 0 t) (iblk m c 1 t) (outsAt0 m c (t.val - 1) (Nat.lt_of_le_of_lt (Nat.sub_le _ _) t.isLt)).2] at hs
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7)
    (iblk m c 0 t) (iblk m c 1 t) (outsAt0 m c (t.val - 1) (Nat.lt_of_le_of_lt (Nat.sub_le _ _) t.isLt)).2) (ix2 p z)).trans ?_
  refine (pay3_apply _ (ix2 p z)).trans (congrArg score ?_)
  rw [hs, h7]
  exact partMin_full (xarr m c) (sarr m c) r

end Cert.MinDist

end
-- ==== Proof.KernelValue.lean ====
/-
  From blocks to the result.

  The output window's block at point `t` is row block `t / 8` of a one-column array, written back only at a row
  block's last tile. What is written back there is that block of ONE function of the argument arrays (the score of
  each row's least distance); every row of the column lies in the block of its own row block's last tile; so after
  the region the column holds that function. The program then reshapes the column `[16384, 1]` to the vector
  `[16384]`, which keeps every entry at its row.
-/
import proofs.«116291_j87780541595761_1_alg».proof.Proof.Gen.KernelIdeal.Frame
import proofs.«116291_j87780541595761_1_alg».proof.Proof.Spec
import proofs.«116291_j87780541595761_1_alg».proof.Proof.Blocks
import proofs.«116291_j87780541595761_1_alg».proof.Proof.Invariant
import Idealize.ShloMosaic.Lib.Pipeline.Value
import Idealize.ShloMosaic.Lib.StableHlo.Run
import Idealize.ShloMosaic.Lib.ValueIdx

noncomputable section

namespace Cert.MinDist

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The one-column result: entry `(r, ·)` is the score of row `r`'s least distance to the rows of `s`. -/
def Gcol (c : Dev nD) : FVec Ideal S16384x1 .f32 :=
  fun i => score (rowMin (xarr m c) (sarr m c) ⟨(i 0).val, (i 0).isLt⟩)

/-- WHAT A FLUSHING POINT WRITES BACK is its block of the one-column result. -/
theorem flushed_eq (c : Dev nD) (t : Fin cfg0.N) (hf : (cfg0.win 2).flush t = true) :
    (dats m 0 c).flushed 2 t = ((cfg0.win 2).blk t).view.read (Elt Ideal) (Gcol m c) := by
  have h7 : t.val % 8 = 7 := (flush0_2 t).mp hf
  have hN : t.val < 128 := lt_of_lt_of_eq t.isLt (show cfg0.N = 128 from N_0)
  show (cfg0.win 2).cut (grid0.coords t) ((dats m 0 c).after 2 t) = _
  rw [after0_2]
  funext y
  obtain ⟨p, z, rfl⟩ : ∃ (p : Fin 1024) (z : Fin 1), y = ix2 p z := ⟨y 0, y 1, eq_ix2 y⟩
  show (outsAt0 m c t.val t.isLt).1 (ix2 p z) = Gcol m c (((cfg0.win 2).blk t).view.emb (ix2 p z))
  obtain ⟨-, -, -, -, e4, -⟩ := block_index t
  have hrow : (((cfg0.win 2).blk t).view.emb (ix2 p z) 0).val = t.val / 8 * 1024 + p.val := by
    show win0_2.index t (0 : Fin 2) * 1024 + 1 * p.val = _
    omega
  refine (out_at m c t h7 p z ⟨t.val / 8 * 1024 + p.val, by omega⟩ rfl).trans ?_
  exact congrArg (fun r => score (rowMin (xarr m c) (sarr m c) r)) (Fin.ext hrow.symm)

/-- An index of the column is in point `t`'s block iff each coordinate is in the block's range on its axis. -/
theorem mem_blk (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- THE COVER: row `r` of the column is in the block written back at the last tile of row block `r / 1024`. -/
theorem covered (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hNN : grid0.N = 128 := N_0
  have hNN' : cfg0.N = 128 := N_0
  obtain ⟨t, ht⟩ : ∃ t : Fin cfg0.N, t.val = (i 0).val / 1024 * 8 + 7 := ⟨⟨(i 0).val / 1024 * 8 + 7, by omega⟩, rfl⟩
  refine ⟨t, (flush0_2 t).mpr (by omega), ?_⟩
  rw [mem_blk]
  obtain ⟨-, -, -, -, e4, e5⟩ := block_index t
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- THE ARRAY after the region: the one-column result. -/
theorem final_col (c : Dev nD) : (dats m 0 c).arrAt 2 cfg0.N = Gcol m c :=
  (dats m 0 c).arrAt_eq_of_cover 2 (Gcol m c) (fun t hf => flushed_eq m c t hf) covered

/-- THE RESULT after the reshape: entry `r` of the vector is entry `(r, 0)` of the column. -/
theorem tail_eq (c : Dev nD) :
    Pipeline.afterTail₀ cfgs (dats m) 0 (V0 m) [hostOps1] c main_v1 = G (xarr m c) (sarr m c) := by
  unfold Pipeline.afterTail₀
  show StableHlo.after hostOps1 _ (Proc.devRef .tc main_v1) = _
  after_results
  funext i
  obtain ⟨r, rfl⟩ : ∃ r : Fin 16384, i = ix1 r := ⟨i 0, eq_ix1 i⟩
  show shapeCast S16384 (Pipeline.withArrays spec0 c (V0 m c) (fun w => (dats m 0 c).arrAt w cfg0.N) (Proc.devRef .tc main_v0))
    shapeCasts_S16384x1_S16384 (ix1 r) = _
  rw [show Pipeline.withArrays spec0 c (V0 m c) (fun w => (dats m 0 c).arrAt w cfg0.N) (Proc.devRef .tc main_v0) = Gcol m c from
    (Pipeline.withArrays_arr spec0 launch0.win.arr_inj c _ _ 2).trans (final_col m c)]
  refine (shapeCast_apply (Gcol m c) shapeCasts_S16384x1_S16384 (ix1 r) (ix2 r (0 : Fin 1)) ?_).trans rfl
  rw [Shape.rowMajor_val_two, Shape.rowMajor_val_one]
  show r.val * 1 + 0 = r.val
  omega

/-- THE KERNEL'S RUN, read: every weakly fair execution terminates with the result buffer at `G` of the argument
    arrays and the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.MinDist

end
-- ==== Proof.Ref.lean ====
/-
  The reference program's result is the specification's function `G`.

  The reference forms, for every row `r` of the first argument and every row `q` of the second, the number
  `sqrt (max ((|x_r|² + |s_q|²) − 2 · ⟨x_r, s_q⟩) 0)`: the two squared lengths are sums over a row of the argument
  times itself, each started from the value of the word `0`, which is the extended real `0` and drops out; the inner
  product is a product of the first argument with the transposed second, whose entry `(k, q)` is the second argument's
  entry `(q, k)`. That is the distance of the specification, entry by entry (`ref_dist`).

  It then takes, for each row `r`, the minimum over all `q` in one reduction started from the value of the word `+∞`.
  A reduction over one axis with a commutative and associative operation is the fold of that operation over the axis's
  coordinates; at the extended reals the operation is `min`, so this is the specification's least distance
  (`ref_rowMin`). Subtracting the value of the word `0.1` and clamping below at the value of the word `0` is the score.
-/
import proofs.«116291_j87780541595761_1_alg».proof.Proof.Gen.ReferenceIdeal.Read
import proofs.«116291_j87780541595761_1_alg».proof.Proof.Spec
import Idealize.ShloMosaic.PureOps.Ideal.Laws
import Idealize.ShloMosaic.Lib.ValueIdx

noncomputable section

namespace Cert.MinDist

open Idealize.ShloMosaic Idealize.ShloMosaic.ValueIdx Cert.ReferenceIdeal Cert.ReferenceIdeal.Gen Cert.ReferenceIdeal.Read

/-- The index the first row sum reads at coordinate `k` of row `r` is `(r, k)`. -/
theorem idx_sq0 (r : Fin 16384) (q : Fin 8192) (k : Fin 128) :
    idx_main_v1 (idx_main_v2 (idx_main_v6 (ix2 r q))) k = ix2 r k :=
  funext fun a => Fin.ext (by match a with | ⟨0, _⟩ => rfl | ⟨1, _⟩ => rfl)

/-- The squared length of row `r` of the first argument, as the reference sums it: the word `0` plus the sum. -/
theorem ref_sq0 (x0 : (⟨S16384x128, .f32⟩ : BufTy).Contents (Elt Ideal)) (r : Fin 16384) (q : Fin 8192) :
    val_main_v6 (F := Ideal) x0 (ix2 r q) = sq x0 r := by
  rw [val_main_v6_apply, val_main_v2_apply, val_main_v1_apply, val_main_cst_apply]
  show Ideal.ofBits .f32 0x00000000#32 + _ = _
  rw [Ideal.ofBits_zero_f32, zero_add]
  unfold sq
  refine Finset.sum_congr rfl fun k _ => ?_
  rw [val_main_v0_apply, idx_sq0, Ideal.mulf_def]

/-- The index the second row sum reads at coordinate `k` of row `q` is `(q, k)`. -/
theorem idx_sq1 (r : Fin 16384) (q : Fin 8192) (k : Fin 128) :
    idx_main_v4 (idx_main_v5 (idx_main_v7 (ix2 r q))) k = ix2 q k :=
  funext fun a => Fin.ext (by match a with | ⟨0, _⟩ => rfl | ⟨1, _⟩ => rfl)

/-- The squared length of row `q` of the second argument, as the reference sums it. -/
theorem ref_sq1 (x1 : (⟨S8192x128, .f32⟩ : BufTy).Contents (Elt Ideal)) (r : Fin 16384) (q : Fin 8192) :
    val_main_v7 (F := Ideal) x1 (ix2 r q) = sq x1 q := by
  rw [val_main_v7_apply, val_main_v5_apply, val_main_v4_apply, val_main_cst_0_apply]
  show Ideal.ofBits .f32 0x00000000#32 + _ = _
  rw [Ideal.ofBits_zero_f32, zero_add]
  unfold sq
  refine Finset.sum_congr rfl fun k _ => ?_
  rw [val_main_v3_apply, idx_sq1, Ideal.mulf_def]

/-- The product's left operand is read at `(r, k)` … -/
theorem idx_dotl (r : Fin 16384) (q : Fin 8192) (k : Fin 128) : lidx_main_v10 (ix2 r q) k = ix2 r k :=
  funext fun a => Fin.ext (by match a with | ⟨0, _⟩ => rfl | ⟨1, _⟩ => rfl)

/-- … and its right operand, the transposed second argument at `(k, q)`, is the second argument at `(q, k)`. -/
theorem idx_dotr (r : Fin 16384) (q : Fin 8192) (k : Fin 128) : idx_main_v9 (ridx_main_v10 (ix2 r q) k) = ix2 q k :=
  funext fun a => Fin.ext (by match a with | ⟨0, _⟩ => rfl | ⟨1, _⟩ => rfl)

/-- The product's entry `(r, q)` is the inner product of the two rows. -/
theorem ref_inner (x0 : (⟨S16384x128, .f32⟩ : BufTy).Contents (Elt Ideal)) (x1 : (⟨S8192x128, .f32⟩ : BufTy).Contents (Elt Ideal))
    (r : Fin 16384) (q : Fin 8192) :
    val_main_v10 (F := Ideal) x0 x1 (ix2 r q) = inner x0 x1 r q := by
  rw [val_main_v10_apply]
  unfold inner
  refine Finset.sum_congr rfl fun k _ => ?_
  rw [val_main_v9_apply, idx_dotl, idx_dotr]

/-- The distance matrix's entry `(r, q)` is the distance between row `r` and row `q`. -/
theorem ref_dist (x0 : (⟨S16384x128, .f32⟩ : BufTy).Contents (Elt Ideal)) (x1 : (⟨S8192x128, .f32⟩ : BufTy).Contents (Elt Ideal))
    (r : Fin 16384) (q : Fin 8192) :
    val_main_v16 (F := Ideal) x0 x1 (ix2 r q) = dist x0 x1 r q := by
  rw [val_main_v16_apply, val_main_v15_apply, val_main_v13_apply, val_main_v8_apply, val_main_v12_apply,
    val_main_v11_apply, val_main_cst_1_apply, val_main_v14_apply, val_main_cst_2_apply,
    ref_sq0, ref_sq1, ref_inner]
  rfl

/-- The least distance of row `r`, as the reference takes it: one reduction with `min` over all rows of the second
    argument, from the value of the word `+∞`. Such a reduction over one axis is the fold of the operation over that
    axis's coordinates (`min` commutes and associates), and the index over `r` with coordinate `q` inserted is `(r, q)`. -/
theorem ref_rowMin (x0 : (⟨S16384x128, .f32⟩ : BufTy).Contents (Elt Ideal)) (x1 : (⟨S8192x128, .f32⟩ : BufTy).Contents (Elt Ideal))
    (r : Fin 16384) :
    val_main_v17 (F := Ideal) x0 x1 (ix1 r) = rowMin x0 x1 r := by
  have h : S16384x8192.Reduces [1] S16384 := by decide
  unfold val_main_v17
  refine (Host.reduce_eq_fold_single (FloatOps.minimumf (F := Ideal) (φ := .f32)) (val_main_v16 (F := Ideal) x0 x1)
    (val_main_cst_3 (F := Ideal)) reducesTo_S16384x8192_S16384_d1 h h_S_ (ix1 r)).trans ?_
  unfold rowMin
  refine Finset.fold_congr (op := min) (b := top) (s := (Finset.univ : Finset (Fin 8192))) (g := dist x0 x1 r) fun q _ => ?_
  have hl : h.lift (ix1 r) q = ix2 r q :=
    funext fun a => Fin.ext (by match a with | ⟨0, _⟩ => rfl | ⟨1, _⟩ => rfl)
  exact (congrArg (val_main_v16 (F := Ideal) x0 x1) hl).trans (ref_dist x0 x1 r q)

/-- THE REFERENCE'S RESULT IS `G`: at row `r` it is the row's least distance less the value of the word `0.1`, clamped
    below at the value of the word `0`. -/
theorem ref_eq_G (x0 : (⟨Cert.ReferenceIdeal.S16384x128, .f32⟩ : BufTy).Contents (Elt Ideal)) (x1 : (⟨Cert.ReferenceIdeal.S8192x128, .f32⟩ : BufTy).Contents (Elt Ideal)) :
    Cert.ReferenceIdeal.Read.val_main_v21 (F := Ideal) x0 x1 = Cert.MinDist.G x0 x1 := by
  funext i
  obtain ⟨r, rfl⟩ : ∃ r : Fin 16384, i = ix1 r := ⟨i 0, eq_ix1 i⟩
  rw [val_main_v21_apply, val_main_v19_apply, val_main_v18_apply, val_main_cst_4_apply, val_main_v20_apply,
    val_main_cst_5_apply, ref_rowMin, G_apply]
  rfl

end Cert.MinDist

end
-- ==== Proof.lean ====
/-
  The kernel computes, for every row of `x`, how far the row lies from its nearest row of `s`, less a fixed
  margin and clamped at zero: `max (min_q sqrt (max (|x_r|² + |s_q|² − 2 ⟨x_r, s_q⟩) 0) − 0.1) 0`.

  The kernel walks a 16 × 8 grid: 1024 rows of `x` against 1024 rows of `s` at a time, keeping in a scratch column
  the least distance met so far in the current row block, starting each row block from `+∞` and writing the
  score out after the row block's last tile; the program then flattens the column to a vector. The reference forms
  the whole 16384 × 8192 distance matrix and reduces each row in one step.

  Over the extended reals the two agree entry by entry. The narrowing of the blocks to bf16 before the product is
  the identity there, the product into a zero accumulator is the rows' inner product on both sides, the lane sums
  and the host sums are the same finite sums, and every constant is the same f32 word on both sides, so the
  distances are literally the same numbers. What remains is that taking the minimum tile by tile, each time
  meeting the running minimum with the tile's own, gives the minimum over all rows: a law of `min` alone
  (Proof/Spec.lean), which holds at infinite values too, so the precondition is never opened.

  The modules: Spec (the function `G` and the law), Payload (the body's three stored values at an index),
  Pieces (which stored value each control case leaves where), Blocks (a point's blocks as rows of the arrays),
  Invariant (the running minimum after every point, by induction), KernelValue (from blocks to the array, and
  the flattening), Ref (the reference's result is `G`), LibDot (a plain matrix product at an entry).
-/
import proofs.«116291_j87780541595761_1_alg».proof.Defs
import proofs.«116291_j87780541595761_1_alg».proof.Proof.Gen.Kernel
import proofs.«116291_j87780541595761_1_alg».proof.Proof.Gen.Kernel.Skeleton
import proofs.«116291_j87780541595761_1_alg».proof.Proof.Gen.Kernel.Launch
import proofs.«116291_j87780541595761_1_alg».proof.Proof.Gen.Kernel.Points
import proofs.«116291_j87780541595761_1_alg».proof.Proof.Gen.Kernel.Frame
import proofs.«116291_j87780541595761_1_alg».proof.Proof.Gen.KernelIdeal
import proofs.«116291_j87780541595761_1_alg».proof.Proof.Gen.KernelIdeal.Skeleton
import proofs.«116291_j87780541595761_1_alg».proof.Proof.Gen.KernelIdeal.Launch
import proofs.«116291_j87780541595761_1_alg».proof.Proof.Gen.KernelIdeal.Points
import proofs.«116291_j87780541595761_1_alg».proof.Proof.Gen.KernelIdeal.Frame
import proofs.«116291_j87780541595761_1_alg».proof.Proof.Gen.ReferenceIdeal
import proofs.«116291_j87780541595761_1_alg».proof.Proof.Gen.ReferenceIdeal.Run
import proofs.«116291_j87780541595761_1_alg».proof.Proof.Gen.ReferenceIdeal.Read
import proofs.«116291_j87780541595761_1_alg».proof.Proof.Gen.Pre_finite_inputs
import proofs.«116291_j87780541595761_1_alg».proof.Proof.KernelValue
import proofs.«116291_j87780541595761_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with their result at `G` of the arguments. -/
theorem algebraic : Cert.algebraic_KernelIdeal_ReferenceIdeal := by
  intro m ρ m' ρ' _ hagree
  refine ⟨_, Cert.MinDist.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.MinDist.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
